-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64 .f32) (main_arg6 : FVec F S64x64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1200000 32) (main_arg2 : FVec F S100000x64 .f32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S5000x64 : Shape := ⟨2, ![5000, 64]⟩

abbrev nBuf : Space → Nat
  | .hbm => 59
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .f32⟩
  | .hbm, ⟨14, _⟩ => ⟨S1200000x1, .f32⟩
  | .hbm, ⟨15, _⟩ => ⟨S_, .f32⟩
  | .hbm, ⟨16, _⟩ => ⟨S100000x1, .f32⟩
  | .hbm, ⟨17, _⟩ => ⟨S1200000x1, .i32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1200000, .i32⟩
  | .hbm, ⟨44, _⟩ => ⟨S1200000, .i1⟩
  | .hbm, ⟨45, _⟩ => ⟨S_, .i32⟩
  | .hbm, ⟨46, _⟩ => ⟨S1200000, .i32⟩
  | .hbm, ⟨47, _⟩ => ⟨S1200000, .i32⟩
  | .hbm, ⟨48, _⟩ => ⟨S1200000, .i32⟩
  | .hbm, ⟨49, _⟩ => ⟨S1200000x1, .i32⟩
  | .hbm, ⟨50, _⟩ => ⟨S1200000x64, .f32⟩
  | .hbm, ⟨51, _⟩ => ⟨S_, .f32⟩
  | .hbm, ⟨52, _⟩ => ⟨S100000x64, .f32⟩
  | .hbm, ⟨53, _⟩ => ⟨S1200000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000x1 : S_.BroadcastsInDim S1200000x1 (![] : Fin 0 → Fin S1200000x1.rank)
  bcast_S_S100000x1 : S_.BroadcastsInDim S100000x1 (![] : Fin 0 → Fin S100000x1.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  natLt_1_32 : 1 < 32
  scatter_S100000x1_S1200000x1_S1200000x1_1_0_0_1_wf : ScatterDims.WF S100000x1 S1200000x1 S1200000x1 [1] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S_, .f32⟩
  | .hbm, ⟨23, _⟩ => ⟨S100000x64, .f32⟩
  | .hbm, ⟨24, _⟩ => ⟨S1200000x1, .i32⟩
  | .hbm, ⟨25, _⟩ => ⟨S100000x64, .f32⟩
  | .hbm, ⟨26, _⟩ => ⟨S_, .f32⟩
  | .hbm, ⟨27, _⟩ => ⟨S1200000x1, .f32⟩
  | .hbm, ⟨28, _⟩ => ⟨S_, .f32⟩
  | .hbm, ⟨29, _⟩ => ⟨S100000x1, .f32⟩
  | .hbm, ⟨30, _⟩ => ⟨S1200000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .i1⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x1200000, .i32⟩
  | .hbm, ⟨55, _⟩ => ⟨S1200000, .i32⟩
  | .hbm, ⟨56, _⟩ => ⟨S1x1200000, .i32⟩
  | .hbm, ⟨57, _⟩ => ⟨S1200000, .i32⟩
  | .hbm, ⟨58, _⟩ => ⟨S_, .i32⟩
  | .hbm, ⟨59, _⟩ => ⟨S1200000, .i32⟩
  | .hbm, ⟨60, _⟩ => ⟨S1200000, .i1⟩
  | .hbm, ⟨61, _⟩ => ⟨S_, .i32⟩
  | .hbm, ⟨62, _⟩ => ⟨S1200000, .i32⟩
  | .hbm, ⟨63, _⟩ => ⟨S1200000, .i32⟩
  | .hbm, ⟨64, _⟩ => ⟨S1200000, .i32⟩
  | .hbm, ⟨65, _⟩ => ⟨S1200000x1, .i32⟩
  | .hbm, ⟨66, _⟩ => ⟨S1200000x64, .f32⟩
  | .hbm, ⟨67, _⟩ => ⟨S_, .f32⟩
  | .hbm, ⟨68, _⟩ => ⟨S100000x64, .f32⟩
  | .hbm, ⟨69, _⟩ => ⟨S1200000x1, .i32⟩
  | .hbm, ⟨70, _⟩ => ⟨S100000x64, .f32⟩
  | .hbm, ⟨71, _⟩ => ⟨S_, .f32⟩
  | .hbm, ⟨72, _⟩ => ⟨S1200000x1, .f32⟩
  | .hbm, ⟨73, _⟩ => ⟨S_, .f32⟩
  | .hbm, ⟨74, _⟩ => ⟨S100000x1, .f32⟩
  | .hbm, ⟨75, _⟩ => ⟨S1200000x1, .i32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KHost.lean ====
/-
  What the host operations around the two regions leave in the arrays the regions read, as functions of the
  argument arrays. Before the first region the host builds the edge lists (sources with negative entries wrapped,
  destinations), counts each node's in-degree by a scatter-add of ones, takes the reciprocal of the degree clipped
  below at one, and forms the first mean: the neighbour sum of x times that reciprocal. Between the regions it does
  the same for the first region's output.
-/
import proofs.«124664_j87282325390064_1_alg».proof.Proof.Gen.KernelIdeal.Frame
import Idealize.ShloMosaic.Lib.StableHlo.Run
import Idealize.ShloMosaic.PureOps.Ideal

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo

/-! ## The host's functions -/

/-- The edges' sources (row 0 of the edge array). -/
def row0 (x1 : IVec S2x1200000 32) : IVec S1200000 32 :=
  shapeCast _ (extractStridedSlice S1x1200000 ![0, 0] x1 slices_S2x1200000_S1x1200000_0_0) shapeCasts_S1x1200000_S1200000
/-- The edges' destinations (row 1). -/
def row1 (x1 : IVec S2x1200000 32) : IVec S1200000 32 :=
  shapeCast _ (extractStridedSlice S1x1200000 ![1, 0] x1 slices_S2x1200000_S1x1200000_1_0) shapeCasts_S1x1200000_S1200000

/-- The sources as gather indices: a negative entry has the node count added. -/
def srcOf (v1 : IVec S1200000 32) : IVec S1200000x1 32 :=
  broadcastInDim S1200000x1 ![0] bcast_S1200000_S1200000x1_0
    (select (cmpi .slt v1 (broadcastInDim S1200000 ![] bcast_S_S1200000 (constantI S_ 32 0#32)))
      (addi v1 (broadcastInDim S1200000 ![] bcast_S_S1200000 (constantI S_ 32 100000#32))) v1)
/-- The destinations as scatter indices. -/
def dstOf (v3 : IVec S1200000 32) : IVec S1200000x1 32 :=
  broadcastInDim S1200000x1 ![0] bcast_S1200000_S1200000x1_0 v3

/-- The neighbour sum: rows of `h` gathered along the sources, scatter-added along the destinations into zeros. -/
def aggOf (v1 v3 : IVec S1200000 32) (h : FVec Ideal S100000x64 .f32) : FVec Ideal S100000x64 .f32 :=
  Host.scatterAdd (F := Ideal) scatter_S100000x64_S1200000x1_S1200000x64_1_0_0_1 (broadcastInDim S100000x64 ![] bcast_S_S100000x64 (constant (F := Ideal) S_ .f32 0x00000000#32)) (dstOf v3)
    (Host.gather gather_S100000x64_S1200000x1_S1200000x64_1_0_n_n_0_1_164 h (srcOf v1))
/-- The in-degrees: ones scatter-added along the destinations into zeros. -/
def cntOf (v3 : IVec S1200000 32) : FVec Ideal S100000x1 .f32 :=
  Host.scatterAdd (F := Ideal) scatter_S100000x1_S1200000x1_S1200000x1_1_0_0_1 (broadcastInDim S100000x1 ![] bcast_S_S100000x1 (constant (F := Ideal) S_ .f32 0x00000000#32)) (dstOf v3)
    (broadcastInDim S1200000x1 ![] bcast_S_S1200000x1 (constant (F := Ideal) S_ .f32 0x3F800000#32))
/-- One over the degree clipped below at one. -/
def invOf (v3 : IVec S1200000 32) : FVec Ideal S100000x1 .f32 :=
  Host.divf (F := Ideal) (broadcastInDim S100000x1 ![] bcast_S_S100000x1 (constant (F := Ideal) S_ .f32 0x3F800000#32))
    (maximumf (F := Ideal) (cntOf v3) (broadcastInDim S100000x1 ![] bcast_S_S100000x1 (constant (F := Ideal) S_ .f32 0x3F800000#32)))
/-- The mean the host hands a region: the neighbour sum times the broadcast reciprocal. -/
def meanOf (v1 v3 : IVec S1200000 32) (iv : FVec Ideal S100000x1 .f32) (h : FVec Ideal S100000x64 .f32) : FVec Ideal S100000x64 .f32 :=
  mulf (F := Ideal) (aggOf v1 v3 h) (broadcastInDim S100000x64 ![0, 1] bcast_S100000x1_S100000x64_0_1 iv)

variable (m : (ℓ : Loc nD τ sig) → Buf (Elt Ideal) ℓ) (ρ : Dev nD → PrngReg)

/-! ## Before the first region -/

set_option maxHeartbeats 4000000 in
theorem W1_v23 (c : Dev nD) : W1 m ρ c (Proc.devRef .tc main_v23)
    = meanOf (row0 (m ((c : Thread nD τ).loc main_arg1))) (row1 (m ((c : Thread nD τ).loc main_arg1)))
        (invOf (row1 (m ((c : Thread nD τ).loc main_arg1)))) (m ((c : Thread nD τ).loc main_arg0)) := by
  show StableHlo.after hostOps0 (W0 m ρ c) (Proc.devRef .tc main_v23) = _
  after_results_simp
  rfl

set_option maxHeartbeats 4000000 in
theorem W1_v24 (c : Dev nD) : W1 m ρ c (Proc.devRef .tc main_v24)
    = shapeCast _ (m ((c : Thread nD τ).loc main_arg5)) shapeCasts_S64_S1x64 := by
  show StableHlo.after hostOps0 (W0 m ρ c) (Proc.devRef .tc main_v24) = _
  after_results_simp
  rfl

set_option maxHeartbeats 4000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
set_option maxHeartbeats 4000000 in
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
set_option maxHeartbeats 4000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

/-! ## Between the regions: what the first region and the first stretch left -/

set_option maxHeartbeats 4000000 in
theorem W2_v1 (c : Dev nD) : W2 m ρ c (Proc.devRef .tc main_v1) = row0 (m ((c : Thread nD τ).loc main_arg1)) := by
  rw [W2_of_ne m ρ c main_v1 (by decide)]
  show StableHlo.after hostOps0 (W0 m ρ c) (Proc.devRef .tc main_v1) = _
  after_results_simp
  rfl
set_option maxHeartbeats 4000000 in
theorem W2_v3 (c : Dev nD) : W2 m ρ c (Proc.devRef .tc main_v3) = row1 (m ((c : Thread nD τ).loc main_arg1)) := by
  rw [W2_of_ne m ρ c main_v3 (by decide)]
  show StableHlo.after hostOps0 (W0 m ρ c) (Proc.devRef .tc main_v3) = _
  after_results_simp
  rfl
set_option maxHeartbeats 4000000 in
theorem W2_v11 (c : Dev nD) : W2 m ρ c (Proc.devRef .tc main_v11) = invOf (row1 (m ((c : Thread nD τ).loc main_arg1))) := by
  rw [W2_of_ne m ρ c main_v11 (by decide)]
  show StableHlo.after hostOps0 (W0 m ρ c) (Proc.devRef .tc main_v11) = _
  after_results_simp
  rfl
/-- The first region's output array, after the region. -/
theorem W2_v25 (c : Dev nD) : W2 m ρ c (Proc.devRef .tc main_v25) = (dat0 (V1 m ρ) c).arrAt 6 cfg0.N :=
  W2_arr m ρ c 6

/-! ## Before the second region -/

set_option maxHeartbeats 4000000 in
theorem W3_v37 (c : Dev nD) : W3 m ρ c (Proc.devRef .tc main_v37)
    = meanOf (row0 (m ((c : Thread nD τ).loc main_arg1))) (row1 (m ((c : Thread nD τ).loc main_arg1))) (invOf (row1 (m ((c : Thread nD τ).loc main_arg1)))) ((dat0 (V1 m ρ) c).arrAt 6 cfg0.N) := by
  show StableHlo.after hostOps1 (W2 m ρ c) (Proc.devRef .tc main_v37) = _
  after_results_simp
  rw [W2_v1, W2_v3, W2_v11, W2_v25]
  rfl
set_option maxHeartbeats 4000000 in
theorem W3_v25 (c : Dev nD) : W3 m ρ c (Proc.devRef .tc main_v25) = (dat0 (V1 m ρ) c).arrAt 6 cfg0.N := by
  show StableHlo.after hostOps1 (W2 m ρ c) (Proc.devRef .tc main_v25) = _
  after_results_simp
  exact W2_v25 m ρ c

set_option maxHeartbeats 4000000 in
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp <;> rfl
set_option maxHeartbeats 4000000 in
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp <;> rfl
set_option maxHeartbeats 4000000 in
theorem W3_v38 (c : Dev nD) : W3 m ρ c (Proc.devRef .tc main_v38)
    = shapeCast _ (m ((c : Thread nD τ).loc main_arg8)) shapeCasts_S64_S1x64 := by
  show StableHlo.after hostOps1 (W2 m ρ c) (Proc.devRef .tc main_v38) = _
  after_results_simp
  rw [W2_of_ne m ρ c main_arg8 (by decide)]
  show shapeCast _ (StableHlo.after hostOps0 (W0 m ρ c) (Proc.devRef .tc main_arg8)) _ = _
  after_results_simp <;> rfl

end Cert.KernelIdeal.HostVal

end
-- ==== Proof.Consts.lean ====
/-
  The float literals the two programs spell, as the extended reals their words denote: zero, one, one half and two.
  One half is the dropout threshold and the reference's divisor (1 - p); two is the kernel's folded reciprocal 1/(1 - p).
-/
import Idealize.ShloMosaic.PureOps.Ideal

noncomputable section

namespace Cert.Sage.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.Sage.Consts

end
-- ==== Proof.Spec.lean ====
/-
  What both programs compute, stated once over whole arrays and read index by index on the extended reals.

  A graph-convolution layer with mean aggregation takes node features h (100000 × 64): each node's incoming
  neighbours' rows are summed (a gather along the edges' sources, then a scatter-add along their destinations; that
  sum is carried here as an unopened function `agg` of h), the sum is divided by the node's in-degree clipped below
  at one (`deg`), and the layer's output at (p, q) is
      max (Σ_k mean[p,k]·wl[k,q] + Σ_k h[p,k]·wr[k,q] + b[q]) 0.
  The network is two such layers; between them each entry is multiplied by the dropout factor of a uniform u[p,q]:
  two if u > 1/2, zero otherwise.

  The two programs differ in how they divide: one multiplies by the reciprocal 1 / max(deg, 1), the other divides by
  max(deg, 1); and one multiplies the indicator by two where the other divides it by one half. On the extended reals
  x · (1 / c) = x / c whenever c ≠ 0, and max(deg, 1) ≥ 1 is never zero, whatever deg is.
-/
import proofs.«124664_j87282325390064_1_alg».proof.Proof.Consts
import Idealize.ShloMosaic.PureOps.Ideal
import Idealize.ShloMosaic.Lib.ValueIdx

noncomputable section

namespace Cert.Sage

open Idealize.ShloMosaic Idealize.ShloMosaic.ValueIdx

/-- Node features: 100000 nodes, 64 channels. -/
abbrev Nodes : Shape := ⟨2, ![100000, 64]⟩
/-- A layer's weight matrix. -/
abbrev Weights : Shape := ⟨2, ![64, 64]⟩
/-- A layer's bias. -/
abbrev Bias : Shape := ⟨1, ![64]⟩

/-! ## The two division laws -/

/-- Multiplying by the reciprocal of a nonzero extended real is dividing by it (also at the infinities: the inverse of
    an infinity is zero on both sides). -/
theorem mul_recip (a c : EReal) (hc : c ≠ 0) : a * Ideal.div 1 c = Ideal.div a c := by
  unfold Ideal.div
  rw [if_neg hc, if_neg hc, one_mul]

/-- A degree clipped below at one is not zero. -/
theorem max_one_ne_zero (c : EReal) : max c 1 ≠ 0 :=
  ne_of_gt (lt_of_lt_of_le zero_lt_one (le_max_right c 1))

/-- The dropout factor of one uniform: the indicator of u > 1/2, as a real, times two. -/
def keep (u : EReal) : EReal :=
  (((FloatOps.cmpf (F := Ideal) .ogt u (Ideal.ofBits .f32 0x3F000000#32)).toNat : ℝ) : EReal) * ((2 : ℝ) : EReal)

/-- A one-bit word widened to 32 bits and read as a signed integer is its value as a natural number. -/
theorem bit_toInt (b : BitVec 1) : (((b.setWidth 32).toInt : ℝ) : EReal) = ((b.toNat : ℝ) : EReal) := by
  rcases BitVec.eq_zero_or_eq_one b with rfl | rfl <;> simp

/-- Dividing the indicator by one half is multiplying it by two. -/
theorem div_half (x : EReal) : Ideal.div x (Ideal.ofBits .f32 0x3F000000#32) = x * ((2 : ℝ) : EReal) := by
  rw [Consts.ofBits_half, Ideal.div_coe (by norm_num : (1 / 2 : ℝ) ≠ 0)]
  norm_num

/-! ## One layer and the network -/

/-- A layer's output at node p, channel q, from the aggregated means `a` and the nodes' own features `r`. -/
def linAt (a r : Nodes.Idx → EReal) (wl wr : Weights.Idx → EReal) (b : Bias.Idx → EReal) (p : Fin 100000) (q : Fin 64) : EReal :=
  max (((∑ k : Fin 64, a (ix2 p k) * wl (ix2 k q)) + ∑ k : Fin 64, r (ix2 p k) * wr (ix2 k q)) + b (ix1 q)) 0

/-- The mean over a node's incoming neighbours: the aggregated sum over the clipped in-degree. -/
def meanOf (agg : (Nodes.Idx → EReal) → Nodes.Idx → EReal) (deg : Fin 100000 → EReal) (h : Nodes.Idx → EReal) : Nodes.Idx → EReal :=
  fun i => Ideal.div (agg h i) (max (deg (i 0)) 1)

/-- The first layer with dropout applied. -/
def hidden (agg : (Nodes.Idx → EReal) → Nodes.Idx → EReal) (deg : Fin 100000 → EReal)
    (x u : Nodes.Idx → EReal) (wl wr : Weights.Idx → EReal) (b : Bias.Idx → EReal) : Nodes.Idx → EReal :=
  fun i => linAt (meanOf agg deg x) x wl wr b (i 0) (i 1) * keep (u i)

/-- The network's output. -/
def net (agg : (Nodes.Idx → EReal) → Nodes.Idx → EReal) (deg : Fin 100000 → EReal)
    (x u : Nodes.Idx → EReal) (w1l w1r : Weights.Idx → EReal) (b1 : Bias.Idx → EReal)
    (w2l w2r : Weights.Idx → EReal) (b2 : Bias.Idx → EReal) : Nodes.Idx → EReal :=
  fun i => linAt (meanOf agg deg (hidden agg deg x u w1l w1r b1)) (hidden agg deg x u w1l w1r b1) w2l w2r b2 (i 0) (i 1)

end Cert.Sage

end
-- ==== Proof.Dense.lean ====
/-
  One grid point's arithmetic, index by index, on the extended reals.

  Both kernel bodies compute, for a block of 5000 rows, the rows' images under two 64×64 matrices, summed, plus a
  bias row, clipped below at zero; the first body also multiplies by the dropout factor, twice the indicator of
  u > 1/2. A change of float format is the identity here, and a matrix product into a zero accumulator is the
  plain sum over the contracted axis, so entry (p, q) of the block is
      max (Σ_k a[p,k]·wl[k,q] + Σ_k r[p,k]·wr[k,q] + b[0,q]) 0        (· keep(u[p,q]) in the first body).
-/
import proofs.«124664_j87282325390064_1_alg».proof.Proof.Gen.KernelIdeal.Skeleton
import proofs.«124664_j87282325390064_1_alg».proof.Proof.Spec
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

/-! ## The matrix product of a 5000×64 block with a 64×64 matrix, at an entry -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of a block's product with a matrix, accumulated into zero: the sum over the 64 columns of the block. -/
theorem mm_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The bias row broadcast over the block's rows reads the row's entry. -/
theorem bias_apply (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-! ## The two bodies at an entry -/

/-- The plain body's block at (p, q). -/
theorem plain_apply (x0 x1 : Vec Ideal S5000x64 .f32) (x3 x4 : Vec Ideal S64x64 .f32) (x5 : Vec Ideal S1x64 .f32)
    (p : Fin 5000) (q : Fin 64) :
    k1_pay1 x0 x1 x3 x4 x5 (ix2 p q)
      = max (((∑ k : Fin 64, x0 (ix2 p k) * x3 (ix2 k q)) + ∑ k : Fin 64, x1 (ix2 p k) * x4 (ix2 k q)) + x5 (ix2 0 q)) 0 := by
  unfold k1_pay1
  simp only [shapeCast_self]
  rw [maximumf_apply, addf_apply, addf_apply, mm_apply, mm_apply, bias_apply, broadcast_apply]
  simp only [truncf_apply]
  show max _ (Ideal.ofBits .f32 0x00000000#32) = _
  rw [Cert.Sage.Consts.ofBits_zero]

/-- The dropout body's block at (p, q): the plain entry times the dropout factor of the uniform there. -/
theorem dropout_apply (x0 x1 x2 : Vec Ideal S5000x64 .f32) (x3 x4 : Vec Ideal S64x64 .f32) (x5 : Vec Ideal S1x64 .f32)
    (p : Fin 5000) (q : Fin 64) :
    k0_pay1 x0 x1 x3 x4 x5 x2 (ix2 p q)
      = max (((∑ k : Fin 64, x0 (ix2 p k) * x3 (ix2 k q)) + ∑ k : Fin 64, x1 (ix2 p k) * x4 (ix2 k q)) + x5 (ix2 0 q)) 0
        * Cert.Sage.keep (x2 (ix2 p q)) := by
  unfold k0_pay1
  simp only [shapeCast_self]
  rw [mulf_apply, mulf_apply, maximumf_apply, addf_apply, addf_apply, mm_apply, mm_apply, bias_apply, broadcast_apply, broadcast_apply,
    sitofp_apply, extui_apply, cmpf_apply, broadcast_apply]
  simp only [truncf_apply]
  show max _ (Ideal.ofBits .f32 0x00000000#32) * ((((BitVec.setWidth 32 (FloatOps.cmpf (F := Ideal) .ogt (x2 (ix2 p q)) (Ideal.ofBits .f32 0x3F000000#32))).toInt : ℝ) : EReal)
      * Ideal.ofBits .f32 0x40000000#32) = _
  rw [Cert.Sage.Consts.ofBits_zero, Cert.Sage.Consts.ofBits_two, Cert.Sage.bit_toInt]
  rfl

end Cert.KernelIdeal.Dense

end
-- ==== Proof.KBlocks.lean ====
/-
  From blocks to arrays. Each region runs over twenty grid points; point t reads rows 5000·t … 5000·t + 4999 of its
  row-blocked operands, the whole weight matrices and the bias row, and writes the same rows of its output. So what
  point t writes back is block t of ONE whole-array function of the arrays the region finds, the layer of Spec.lean,
  and since the twenty blocks tile the output, the output array ends holding that function.
-/
import proofs.«124664_j87282325390064_1_alg».proof.Proof.Gen.KernelIdeal.Frame
import proofs.«124664_j87282325390064_1_alg».proof.Proof.Dense
import Idealize.ShloMosaic.Lib.Pipeline.Value

set_option maxRecDepth 16384

noncomputable section

namespace Cert.KernelIdeal.Blocks

open Cert.KernelIdeal Cert.KernelIdeal.Gen Cert.KernelIdeal.Dense Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias as the kernel holds it, a 1×64 row, read as a vector of 64. -/
def biasOf (b : S1x64.Idx → EReal) : Bias.Idx → EReal := fun j => b (ix2 0 (j 0))

/-- Row p of block t is row 5000·t + p of the array. -/
def rowOf (t : Fin 20) (p : Fin 5000) : Fin 100000 := ⟨5000 * t.val + p.val, by have := t.isLt; have := p.isLt; omega⟩

/-! ## Region 0: the first layer with dropout -/

/-- What the first region's output array ends holding, from the arrays the region finds. -/
def G0 (c : Dev nD) : S100000x64.Idx → EReal := fun i =>
  linAt (V c main_v23) (V c main_arg0) (V c main_arg3) (V c main_arg4) (biasOf (V c main_v24)) (i 0) (i 1) * keep (V c main_arg2 i)

/-- The printed index maps over the grid: the row-blocked windows are at block (t, 0), the others at (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt0 (t : Fin cfg0.N) : t.val < 20 := t.isLt

/-- Point t's blocks of the row-blocked operands at (p, k), and of the whole operands. -/
theorem rd0_0 (c : Dev nD) (t : Fin cfg0.N) (p : Fin 5000) (k : Fin 64) :
    iblk0 V c 0 t (ix2 p k) = V c main_v23 (ix2 (rowOf ⟨t.val, lt0 t⟩ p) k) := by
  have e := idx0 t
  show V c main_v23 (((cfg0.win 0).blk t).view.emb (ix2 p k)) = _
  refine congrArg (V c main_v23) (funext fun a => Fin.ext ?_)
  match a with
  | ⟨0, _⟩ => show win0_0.index t (0 : Fin 2) * 5000 + 1 * p.val = 5000 * t.val + p.val; omega
  | ⟨1, _⟩ => show win0_0.index t (1 : Fin 2) * 64 + 1 * k.val = k.val; omega
theorem rd0_1 (c : Dev nD) (t : Fin cfg0.N) (p : Fin 5000) (k : Fin 64) :
    iblk0 V c 1 t (ix2 p k) = V c main_arg0 (ix2 (rowOf ⟨t.val, lt0 t⟩ p) k) := by
  have e := idx0 t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = 5000 * t.val + p.val; omega
  | ⟨1, _⟩ => show win0_1.index t (1 : Fin 2) * 64 + 1 * k.val = k.val; omega
theorem rd0_2 (c : Dev nD) (t : Fin cfg0.N) (p : Fin 5000) (k : Fin 64) :
    iblk0 V c 2 t (ix2 p k) = V c main_arg2 (ix2 (rowOf ⟨t.val, lt0 t⟩ p) k) := by
  have e := idx0 t
  show V c main_arg2 (((cfg0.win 2).blk t).view.emb (ix2 p k)) = _
  refine congrArg (V c main_arg2) (funext fun a => Fin.ext ?_)
  match a with
  | ⟨0, _⟩ => show win0_2.index t (0 : Fin 2) * 5000 + 1 * p.val = 5000 * t.val + p.val; omega
  | ⟨1, _⟩ => show win0_2.index t (1 : Fin 2) * 64 + 1 * k.val = k.val; omega
theorem rd0_3 (c : Dev nD) (t : Fin cfg0.N) (k : Fin 64) (q : Fin 64) :
    iblk0 V c 3 t (ix2 k q) = V c main_arg3 (ix2 k q) := by
  have e := idx0 t
  show V c main_arg3 (((cfg0.win 3).blk t).view.emb (ix2 k q)) = _
  refine congrArg (V c main_arg3) (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega
theorem rd0_4 (c : Dev nD) (t : Fin cfg0.N) (k : Fin 64) (q : Fin 64) :
    iblk0 V c 4 t (ix2 k q) = V c main_arg4 (ix2 k q) := by
  have e := idx0 t
  show V c main_arg4 (((cfg0.win 4).blk t).view.emb (ix2 k q)) = _
  refine congrArg (V c main_arg4) (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega
theorem rd0_5 (c : Dev nD) (t : Fin cfg0.N) (k : Fin 1) (q : Fin 64) :
    iblk0 V c 5 t (ix2 k q) = V c main_v24 (ix2 k q) := by
  have e := idx0 t
  show V c main_v24 (((cfg0.win 5).blk t).view.emb (ix2 k q)) = _
  refine congrArg (V c main_v24) (funext fun a => Fin.ext ?_)
  match a with
  | ⟨0, _⟩ => show win0_5.index t (0 : Fin 2) * 1 + 1 * k.val = k.val; omega
  | ⟨1, _⟩ => show win0_5.index t (1 : Fin 2) * 64 + 1 * q.val = q.val; omega

/-- Where point t's output block sits in the array. -/
theorem emb0 (t : Fin cfg0.N) (p : Fin 5000) (q : Fin 64) :
    ((cfg0.win 6).blk t).view.emb (ix2 p q) = ix2 (rowOf ⟨t.val, lt0 t⟩ p) q := by
  have e := idx0 t
  refine funext fun a => Fin.ext ?_
  match a with
  | ⟨0, _⟩ => show win0_6.index t (0 : Fin 2) * 5000 + 1 * p.val = 5000 * t.val + p.val; omega
  | ⟨1, _⟩ => show win0_6.index t (1 : Fin 2) * 64 + 1 * q.val = q.val; omega

/-- WHAT POINT t WRITES BACK is block t of the layer of the arrays the region finds. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (dropout_apply (iblk0 V c 0 t) (iblk0 V c 1 t) (iblk0 V c 2 t) (iblk0 V c 3 t) (iblk0 V c 4 t) (iblk0 V c 5 t) p q).trans ?_
  show _ = G0 V c (((cfg0.win 6).blk t).view.emb (ix2 p q))
  rw [emb0]
  simp only [rd0_0, rd0_1, rd0_2, rd0_3, rd0_4, rd0_5]
  rfl

/-- An index of the output array is in point t's block iff each coordinate is in the block's range. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v25).slice (win0_6.rect t)).set ↔ _
  rw [View.set_slice_whole, Rect.mem_set_unit]
  exact Iff.rfl

/-- The twenty blocks tile the output: row r lies in the block of point r / 5000. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 5000, by show (i 0).val / 5000 < 20; omega⟩
  have ht : t.val = (i 0).val / 5000 := rfl
  have e := idx0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE OUTPUT ARRAY after the region: the layer of the arrays the region found. -/
theorem final0 (c : Dev nD) : (dat0 V c).arrAt 6 cfg0.N = G0 V c :=
  (dat0 V c).arrAt_eq_of_cover 6 (G0 V c) (fun t _ => flushed0 V c t) (cover0)

/-! ## Region 1: the second layer -/

/-- What the second region's output array ends holding, from the arrays the region finds. -/
def G1 (c : Dev nD) : S100000x64.Idx → EReal := fun i =>
  linAt (V c main_v37) (V c main_v25) (V c main_arg6) (V c main_arg7) (biasOf (V c main_v38)) (i 0) (i 1)

/-- The printed index maps over the grid. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 20 := t.isLt

theorem rd1_0 (c : Dev nD) (t : Fin cfg1.N) (p : Fin 5000) (k : Fin 64) :
    iblk1 V c 0 t (ix2 p k) = V c main_v37 (ix2 (rowOf ⟨t.val, lt1 t⟩ p) k) := by
  have e := idx1 t
  show V c main_v37 (((cfg1.win 0).blk t).view.emb (ix2 p k)) = _
  refine congrArg (V c main_v37) (funext fun a => Fin.ext ?_)
  match a with
  | ⟨0, _⟩ => show win1_0.index t (0 : Fin 2) * 5000 + 1 * p.val = 5000 * t.val + p.val; omega
  | ⟨1, _⟩ => show win1_0.index t (1 : Fin 2) * 64 + 1 * k.val = k.val; omega
theorem rd1_1 (c : Dev nD) (t : Fin cfg1.N) (p : Fin 5000) (k : Fin 64) :
    iblk1 V c 1 t (ix2 p k) = V c main_v25 (ix2 (rowOf ⟨t.val, lt1 t⟩ p) k) := by
  have e := idx1 t
  show V c main_v25 (((cfg1.win 1).blk t).view.emb (ix2 p k)) = _
  refine congrArg (V c main_v25) (funext fun a => Fin.ext ?_)
  match a with
  | ⟨0, _⟩ => show win1_1.index t (0 : Fin 2) * 5000 + 1 * p.val = 5000 * t.val + p.val; omega
  | ⟨1, _⟩ => show win1_1.index t (1 : Fin 2) * 64 + 1 * k.val = k.val; omega
theorem rd1_2 (c : Dev nD) (t : Fin cfg1.N) (k : Fin 64) (q : Fin 64) :
    iblk1 V c 2 t (ix2 k q) = V c main_arg6 (ix2 k q) := by
  have e := idx1 t
  show V c main_arg6 (((cfg1.win 2).blk t).view.emb (ix2 k q)) = _
  refine congrArg (V c main_arg6) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega
theorem rd1_3 (c : Dev nD) (t : Fin cfg1.N) (k : Fin 64) (q : Fin 64) :
    iblk1 V c 3 t (ix2 k q) = V c main_arg7 (ix2 k q) := by
  have e := idx1 t
  show V c main_arg7 (((cfg1.win 3).blk t).view.emb (ix2 k q)) = _
  refine congrArg (V c main_arg7) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega
theorem rd1_4 (c : Dev nD) (t : Fin cfg1.N) (k : Fin 1) (q : Fin 64) :
    iblk1 V c 4 t (ix2 k q) = V c main_v38 (ix2 k q) := by
  have e := idx1 t
  show V c main_v38 (((cfg1.win 4).blk t).view.emb (ix2 k q)) = _
  refine congrArg (V c main_v38) (funext fun a => Fin.ext ?_)
  match a with
  | ⟨0, _⟩ => show win1_4.index t (0 : Fin 2) * 1 + 1 * k.val = k.val; omega
  | ⟨1, _⟩ => show win1_4.index t (1 : Fin 2) * 64 + 1 * q.val = q.val; omega

/-- Where point t's output block sits in the array. -/
theorem emb1 (t : Fin cfg1.N) (p : Fin 5000) (q : Fin 64) :
    ((cfg1.win 5).blk t).view.emb (ix2 p q) = ix2 (rowOf ⟨t.val, lt1 t⟩ p) q := by
  have e := idx1 t
  refine funext fun a => Fin.ext ?_
  match a with
  | ⟨0, _⟩ => show win1_5.index t (0 : Fin 2) * 5000 + 1 * p.val = 5000 * t.val + p.val; omega
  | ⟨1, _⟩ => show win1_5.index t (1 : Fin 2) * 64 + 1 * q.val = q.val; omega

/-- WHAT POINT t WRITES BACK is block t of the layer of the arrays the region finds. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (plain_apply (iblk1 V c 0 t) (iblk1 V c 1 t) (iblk1 V c 2 t) (iblk1 V c 3 t) (iblk1 V c 4 t) p q).trans ?_
  show _ = G1 V c (((cfg1.win 5).blk t).view.emb (ix2 p q))
  rw [emb1]
  simp only [rd1_0, rd1_1, rd1_2, rd1_3, rd1_4]
  rfl

/-- An index of the output array is in point t's block iff each coordinate is in the block's range. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- The twenty blocks tile the output: row r lies in the block of point r / 5000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 5000, by show (i 0).val / 5000 < 20; omega⟩
  have ht : t.val = (i 0).val / 5000 := rfl
  have e := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY after the region: the layer of the arrays the region found. -/
theorem final1 (c : Dev nD) : (dat1 V c).arrAt 5 cfg1.N = G1 V c :=
  (dat1 V c).arrAt_eq_of_cover 5 (G1 V c) (fun t _ => flushed1 V c t) (cover1)

end Cert.KernelIdeal.Blocks

end
-- ==== Proof.KValue.lean ====
/-
  The kernel program's result as the network of Spec.lean.

  The second region's output is the layer of the arrays it finds; those are the second mean, which the host forms from
  the first region's output, that output itself, the second weights and bias. The first region's output is the layer
  with dropout of the first mean, x, the uniforms, the first weights and bias. Each mean is the neighbour sum TIMES the
  reciprocal of the clipped degree, which is the neighbour sum OVER the clipped degree since that is never zero.
-/
import proofs.«124664_j87282325390064_1_alg».proof.Proof.KHost
import proofs.«124664_j87282325390064_1_alg».proof.Proof.KBlocks
import proofs.«124664_j87282325390064_1_alg».proof.Proof.Spec
import Idealize.ShloMosaic.Lib.Pipeline.Value
import Idealize.ShloMosaic.Lib.ValueIdx

set_option maxRecDepth 16384

noncomputable section

namespace Cert.KernelIdeal.NetValue

open Cert.KernelIdeal Cert.KernelIdeal.Gen Cert.KernelIdeal.HostVal Cert.KernelIdeal.Blocks Cert.Sage
open Idealize.ShloMosaic Idealize.ShloMosaic.TcCoe Idealize.SL.Sem Idealize.ShloMosaic.ValueIdx

/-- The neighbour sum as a function of the edge array. -/
def agg (x1 : IVec S2x1200000 32) (h : Nodes.Idx → EReal) : Nodes.Idx → EReal := aggOf (row0 x1) (row1 x1) h
/-- A node's in-degree. -/
def deg (x1 : IVec S2x1200000 32) (p : Fin 100000) : EReal := cntOf (row1 x1) (ix2 p 0)

/-- The broadcast constant one, read anywhere, is the real one. -/
theorem ones_apply (j : S100000x1.Idx) :
    broadcastInDim S100000x1 ![] bcast_S_S100000x1 (constant (F := Ideal) S_ .f32 0x3F800000#32) j = 1 := by
  rw [broadcastInDim_apply _ bcast_S_S100000x1 _ j (fun a => a.elim0) (fun a => a.elim0), constant_apply, Consts.ofBits_one]

/-- The reciprocal of the clipped degree at a node. -/
theorem inv_apply (v3 : IVec S1200000 32) (j : S100000x1.Idx) :
    invOf v3 j = Ideal.div 1 (max (cntOf v3 j) 1) := by
  unfold invOf
  rw [show ∀ (A B : FVec Ideal S100000x1 .f32), Host.divf A B j = Ideal.div (A j) (B j) from fun _ _ => rfl,
    maximumf_apply, ones_apply]

/-- The host's mean, a product with the reciprocal, is the quotient by the clipped degree. -/
theorem mean_eq (x1 : IVec S2x1200000 32) (h : FVec Ideal S100000x64 .f32) :
    HostVal.meanOf (row0 x1) (row1 x1) (invOf (row1 x1)) h = Sage.meanOf (agg x1) (deg x1) h := by
  funext i
  unfold HostVal.meanOf Sage.meanOf
  rw [mulf_apply, broadcastInDim_apply _ bcast_S100000x1_S100000x64_0_1 _ i (ix2 (i 0) 0) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl]),
    inv_apply, mul_recip _ _ (max_one_ne_zero _)]
  rfl

/-- The bias reshaped to a 1×64 row and read back as a vector is the bias. -/
theorem bias_eq (b : FVec Ideal S64 .f32) : biasOf (shapeCast S1x64 b shapeCasts_S64_S1x64) = b := by
  funext j
  unfold biasOf
  rw [shapeCast_apply b shapeCasts_S64_S1x64 (ix2 0 (j 0)) (ix1 (j 0))
    (by rewrite [Shape.rowMajor_val_two, Shape.rowMajor_val_one]; show (j 0).val = 0 * 64 + (j 0).val; omega)]
  exact congrArg b (eq_ix1 j).symm

variable (m : (ℓ : Loc nD τ sig) → Buf (Elt Ideal) ℓ) (ρ : Dev nD → PrngReg)

/-! ## The arrays each region finds, as the regions' proof data name them -/

theorem V1_v23 (c : Dev nD) : V1 m ρ c main_v23 = HostVal.meanOf (row0 (m ((c : Thread nD τ).loc main_arg1))) (row1 (m ((c : Thread nD τ).loc main_arg1))) (invOf (row1 (m ((c : Thread nD τ).loc main_arg1)))) (m ((c : Thread nD τ).loc main_arg0)) := W1_v23 m ρ c
theorem V1_v24 (c : Dev nD) : V1 m ρ c main_v24 = shapeCast S1x64 (m ((c : Thread nD τ).loc main_arg5)) shapeCasts_S64_S1x64 := W1_v24 m ρ c
theorem V1_arg0 (c : Dev nD) : V1 m ρ c main_arg0 = (m ((c : Thread nD τ).loc main_arg0)) := W1_arg0 m ρ c
theorem V1_arg2 (c : Dev nD) : V1 m ρ c main_arg2 = (m ((c : Thread nD τ).loc main_arg2)) := W1_arg2 m ρ c
theorem V1_arg3 (c : Dev nD) : V1 m ρ c main_arg3 = (m ((c : Thread nD τ).loc main_arg3)) := W1_arg3 m ρ c
theorem V1_arg4 (c : Dev nD) : V1 m ρ c main_arg4 = (m ((c : Thread nD τ).loc main_arg4)) := W1_arg4 m ρ c
theorem V3_v37 (c : Dev nD) : V3 m ρ c main_v37 = HostVal.meanOf (row0 (m ((c : Thread nD τ).loc main_arg1))) (row1 (m ((c : Thread nD τ).loc main_arg1))) (invOf (row1 (m ((c : Thread nD τ).loc main_arg1)))) ((dat0 (V1 m ρ) c).arrAt 6 cfg0.N) := W3_v37 m ρ c
theorem V3_v25 (c : Dev nD) : V3 m ρ c main_v25 = (dat0 (V1 m ρ) c).arrAt 6 cfg0.N := W3_v25 m ρ c
theorem V3_v38 (c : Dev nD) : V3 m ρ c main_v38 = shapeCast S1x64 (m ((c : Thread nD τ).loc main_arg8)) shapeCasts_S64_S1x64 := W3_v38 m ρ c
theorem V3_arg6 (c : Dev nD) : V3 m ρ c main_arg6 = (m ((c : Thread nD τ).loc main_arg6)) := W3_arg6 m ρ c
theorem V3_arg7 (c : Dev nD) : V3 m ρ c main_arg7 = (m ((c : Thread nD τ).loc main_arg7)) := W3_arg7 m ρ c

/-- The first region's output: the hidden features. -/
theorem hidden_eq (c : Dev nD) : (dat0 (V1 m ρ) c).arrAt 6 cfg0.N
    = hidden (agg (m ((c : Thread nD τ).loc main_arg1))) (deg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) := by
  rw [final0]
  unfold G0
  rw [V1_v23, V1_v24, V1_arg0, V1_arg2, V1_arg3, V1_arg4, mean_eq, bias_eq]
  rfl

/-- THE KERNEL PROGRAM'S RESULT: the network over its own neighbour sum and degree. -/
theorem result_eq (c : Dev nD) : W4 m ρ c (Proc.devRef .tc main_v39)
    = net (agg (m ((c : Thread nD τ).loc main_arg1))) (deg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W4 m ρ c (Proc.devRef .tc main_v39) = (dat1 (V3 m ρ) c).arrAt 5 cfg1.N from W4_arr m ρ c 5, final1]
  unfold G1
  rw [V3_v37, V3_v38, V3_v25, V3_arg6, V3_arg7, mean_eq, bias_eq, hidden_eq]
  rfl

end Cert.KernelIdeal.NetValue

end
-- ==== Proof.RefSide.lean ====
/-
  The reference program read as the network of Spec.lean: its neighbour sum (gather along the sources, scatter-add
  along the destinations) is carried unopened as `agg`, its in-degree count as `deg`; every other operation is read
  at an index. The reference computes the edge lists and the degree once per layer; the two copies are the same
  operations of the same edge array.
-/
import proofs.«124664_j87282325390064_1_alg».proof.Proof.Gen.ReferenceIdeal.Read
import proofs.«124664_j87282325390064_1_alg».proof.Proof.Spec

noncomputable section

namespace Cert.ReferenceIdeal.RefValue

open Cert.ReferenceIdeal Cert.ReferenceIdeal.Read Idealize.ShloMosaic Idealize.ShloMosaic.ValueIdx Cert.Sage

/-- The sum over each node's incoming edges of the source node's row of `h`. -/
def agg (x1 : (⟨S2x1200000, .i32⟩ : BufTy).Contents (Elt Ideal)) (h : Nodes.Idx → EReal) : Nodes.Idx → EReal :=
  (Host.scatterAdd (F := Ideal) (φ := .f32) scatter_S100000x64_S1200000x1_S1200000x64_1_0_0_1 (val_main_v11 (F := Ideal)) (val_main_v12 (F := Ideal) x1)
    (Host.gather gather_S100000x64_S1200000x1_S1200000x64_1_0_n_n_0_1_164 (h : FVec Ideal S100000x64 .f32) (val_main_v9 (F := Ideal) x1)) : FVec Ideal S100000x64 .f32)

/-- A node's in-degree: ones scatter-added along the destinations. -/
def deg (x1 : (⟨S2x1200000, .i32⟩ : BufTy).Contents (Elt Ideal)) (p : Fin 100000) : EReal := val_main_v17 (F := Ideal) x1 (ix2 p 0)

/-! ## The index maps of the generated read lemmas, in coordinates -/

theorem l22 (i : S100000x64.Idx) (k : Fin 64) : lidx_main_v22 i k = ix2 (i 0) k := by
  funext a; match a with | ⟨0, _⟩ => rfl | ⟨1, _⟩ => rfl
theorem r22 (i : S100000x64.Idx) (k : Fin 64) : ridx_main_v22 i k = ix2 k (i 1) := by
  funext a; match a with | ⟨0, _⟩ => rfl | ⟨1, _⟩ => rfl
theorem l23 (i : S100000x64.Idx) (k : Fin 64) : lidx_main_v23 i k = ix2 (i 0) k := by
  funext a; match a with | ⟨0, _⟩ => rfl | ⟨1, _⟩ => rfl
theorem r23 (i : S100000x64.Idx) (k : Fin 64) : ridx_main_v23 i k = ix2 k (i 1) := by
  funext a; match a with | ⟨0, _⟩ => rfl | ⟨1, _⟩ => rfl
theorem l57 (i : S100000x64.Idx) (k : Fin 64) : lidx_main_v57 i k = ix2 (i 0) k := by
  funext a; match a with | ⟨0, _⟩ => rfl | ⟨1, _⟩ => rfl
theorem r57 (i : S100000x64.Idx) (k : Fin 64) : ridx_main_v57 i k = ix2 k (i 1) := by
  funext a; match a with | ⟨0, _⟩ => rfl | ⟨1, _⟩ => rfl
theorem l58 (i : S100000x64.Idx) (k : Fin 64) : lidx_main_v58 i k = ix2 (i 0) k := by
  funext a; match a with | ⟨0, _⟩ => rfl | ⟨1, _⟩ => rfl
theorem r58 (i : S100000x64.Idx) (k : Fin 64) : ridx_main_v58 i k = ix2 k (i 1) := by
  funext a; match a with | ⟨0, _⟩ => rfl | ⟨1, _⟩ => rfl
theorem d20 (i : S100000x64.Idx) : idx_main_v20 i = ix2 (i 0) 0 := by
  funext a; match a with | ⟨0, _⟩ => rfl | ⟨1, _⟩ => rfl
theorem d55 (i : S100000x64.Idx) : idx_main_v55 i = ix2 (i 0) 0 := by
  funext a; match a with | ⟨0, _⟩ => rfl | ⟨1, _⟩ => rfl
theorem b26 (i : S100000x64.Idx) : idx_main_v25 (idx_main_v26 i) = ix1 (i 1) := by
  funext a; match a with | ⟨0, _⟩ => rfl
theorem b61 (i : S100000x64.Idx) : idx_main_v60 (idx_main_v61 i) = ix1 (i 1) := by
  funext a; match a with | ⟨0, _⟩ => rfl

/-! ## The first layer -/

/-- The first layer's mean: the neighbour sum of the inputs over the clipped degree. -/
theorem mean1 (x0 : (⟨S100000x64, .f32⟩ : BufTy).Contents (Elt Ideal)) (x1 : (⟨S2x1200000, .i32⟩ : BufTy).Contents (Elt Ideal)) :
    val_main_v21 (F := Ideal) x0 x1 = meanOf (agg x1) (deg x1) x0 := by
  funext i
  rw [val_main_v21_apply, val_main_v20_apply, val_main_v19_apply, val_main_v18_apply, val_main_cst_3_apply, d20]
  show Ideal.div (agg x1 x0 i) (max (val_main_v17 (F := Ideal) x1 (ix2 (i 0) 0)) (Ideal.ofBits .f32 0x3F800000#32)) = _
  rw [Consts.ofBits_one]
  rfl

/-- The first layer after dropout. -/
theorem hidden1 (x0 : (⟨S100000x64, .f32⟩ : BufTy).Contents (Elt Ideal)) (x1 : (⟨S2x1200000, .i32⟩ : BufTy).Contents (Elt Ideal)) (x2 : (⟨S100000x64, .f32⟩ : BufTy).Contents (Elt Ideal)) (x3 : (⟨S64x64, .f32⟩ : BufTy).Contents (Elt Ideal)) (x4 : (⟨S64x64, .f32⟩ : BufTy).Contents (Elt Ideal)) (x5 : (⟨S64, .f32⟩ : BufTy).Contents (Elt Ideal)) :
    val_main_v34 (F := Ideal) x0 x1 x2 x3 x4 x5 = hidden (agg x1) (deg x1) x0 x2 x3 x4 x5 := by
  funext i
  rw [val_main_v34_apply, val_main_v33_apply, val_main_v32_apply, val_main_cst_5_apply, val_main_v31_apply, val_main_v30_apply,
    val_main_v29_apply, val_main_cst_4_apply, val_main_v28_apply, val_main_call0_v0_apply, val_main_call0_cst_apply,
    val_main_v27_apply, val_main_v26_apply, val_main_v25_apply, val_main_v24_apply, val_main_v23_apply, val_main_v22_apply, mean1, b26]
  simp only [l22, r22, l23, r23]
  show max (((∑ k : Fin 64, meanOf (agg x1) (deg x1) x0 (ix2 (i 0) k) * x3 (ix2 k (i 1))) + ∑ k : Fin 64, x0 (ix2 (i 0) k) * x4 (ix2 k (i 1)))
      + x5 (ix1 (i 1))) (Ideal.ofBits .f32 0x00000000#32)
    * Ideal.div (((FloatOps.cmpf (F := Ideal) .ogt (x2 i) (Ideal.ofBits .f32 0x3F000000#32)).toNat : ℝ) : EReal) (Ideal.ofBits .f32 0x3F000000#32) = _
  rw [Consts.ofBits_zero, div_half]
  rfl

/-! ## The second layer -/

/-- The second layer's neighbour sum is the same function of the edge array, applied to the hidden features. -/
theorem agg2 (x0 : (⟨S100000x64, .f32⟩ : BufTy).Contents (Elt Ideal)) (x1 : (⟨S2x1200000, .i32⟩ : BufTy).Contents (Elt Ideal)) (x2 : (⟨S100000x64, .f32⟩ : BufTy).Contents (Elt Ideal)) (x3 : (⟨S64x64, .f32⟩ : BufTy).Contents (Elt Ideal)) (x4 : (⟨S64x64, .f32⟩ : BufTy).Contents (Elt Ideal)) (x5 : (⟨S64, .f32⟩ : BufTy).Contents (Elt Ideal)) :
    val_main_v48 (F := Ideal) x0 x1 x2 x3 x4 x5 = agg x1 (val_main_v34 (F := Ideal) x0 x1 x2 x3 x4 x5) := rfl

/-- The second layer's degree count is the first's. -/
theorem deg2 (x1 : (⟨S2x1200000, .i32⟩ : BufTy).Contents (Elt Ideal)) : val_main_v52 (F := Ideal) x1 = val_main_v17 (F := Ideal) x1 := rfl

/-- The second layer's mean. -/
theorem mean2 (x0 : (⟨S100000x64, .f32⟩ : BufTy).Contents (Elt Ideal)) (x1 : (⟨S2x1200000, .i32⟩ : BufTy).Contents (Elt Ideal)) (x2 : (⟨S100000x64, .f32⟩ : BufTy).Contents (Elt Ideal)) (x3 : (⟨S64x64, .f32⟩ : BufTy).Contents (Elt Ideal)) (x4 : (⟨S64x64, .f32⟩ : BufTy).Contents (Elt Ideal)) (x5 : (⟨S64, .f32⟩ : BufTy).Contents (Elt Ideal)) :
    val_main_v56 (F := Ideal) x0 x1 x2 x3 x4 x5 = meanOf (agg x1) (deg x1) (val_main_v34 (F := Ideal) x0 x1 x2 x3 x4 x5) := by
  funext i
  rw [val_main_v56_apply, val_main_v55_apply, val_main_v54_apply, val_main_v53_apply, val_main_cst_11_apply, d55, agg2, deg2]
  show Ideal.div (agg x1 _ i) (max (val_main_v17 (F := Ideal) x1 (ix2 (i 0) 0)) (Ideal.ofBits .f32 0x3F800000#32)) = _
  rw [Consts.ofBits_one]
  rfl

/-- THE REFERENCE'S RESULT is the network of Spec.lean over its own neighbour sum and degree. -/
theorem result_eq (x0 : (⟨S100000x64, .f32⟩ : BufTy).Contents (Elt Ideal)) (x1 : (⟨S2x1200000, .i32⟩ : BufTy).Contents (Elt Ideal)) (x2 : (⟨S100000x64, .f32⟩ : BufTy).Contents (Elt Ideal)) (x3 : (⟨S64x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) :
    val_main_v63 (F := Ideal) x0 x1 x2 x3 x4 x5 x6 x7 x8 = net (agg x1) (deg x1) x0 x2 x3 x4 x5 x6 x7 x8 := by
  funext i
  rw [val_main_v63_apply, val_main_call1_v0_apply, val_main_call1_cst_apply,
    val_main_v62_apply, val_main_v61_apply, val_main_v60_apply, val_main_v59_apply, val_main_v58_apply, val_main_v57_apply, mean2, b61, hidden1]
  simp only [l57, r57, l58, r58]
  show max (((∑ k : Fin 64, meanOf (agg x1) (deg x1) (hidden (agg x1) (deg x1) x0 x2 x3 x4 x5) (ix2 (i 0) k) * x6 (ix2 k (i 1)))
      + ∑ k : Fin 64, hidden (agg x1) (deg x1) x0 x2 x3 x4 x5 (ix2 (i 0) k) * x7 (ix2 k (i 1)))
      + x8 (ix1 (i 1))) (Ideal.ofBits .f32 0x00000000#32) = _
  rw [Consts.ofBits_zero]
  rfl

end Cert.ReferenceIdeal.RefValue

end
-- ==== Proof.lean ====
/-
  The certificate of a two-layer graph convolution (mean aggregation, dropout between the layers) against its jnp
  reference, over the extended reals.

  Both programs gather rows along the edges' sources and scatter-add them along the destinations on the host; the kernel
  program runs each layer's dense part — two 64×64 matrix products, a bias, a clip at zero, and after the first layer
  the dropout factor — in a Pallas region over twenty row blocks, where the reference does it with host operations.
  They differ in two places only: the kernel program multiplies the neighbour sum by 1 / max(deg, 1) where the
  reference divides by max(deg, 1), and it multiplies the dropout indicator by 2 where the reference divides it by
  1/2. Both pairs agree on the extended reals (max(deg, 1) is never zero), so no finiteness of the inputs is used.

  The modules: Spec (the network as one function, and the two laws), Dense (a grid point's block, entry by entry),
  KBlocks (blocks to arrays), KHost (what the host stretches hand the regions), KRun (the run with the result named),
  KValue (the kernel program's result is the network), RefSide (the reference's result is the network).
-/
import proofs.«124664_j87282325390064_1_alg».proof.Defs
import proofs.«124664_j87282325390064_1_alg».proof.Proof.Gen.Kernel
import proofs.«124664_j87282325390064_1_alg».proof.Proof.Gen.Kernel.Skeleton
import proofs.«124664_j87282325390064_1_alg».proof.Proof.Gen.Kernel.Launch
import proofs.«124664_j87282325390064_1_alg».proof.Proof.Gen.Kernel.Points
import proofs.«124664_j87282325390064_1_alg».proof.Proof.Gen.Kernel.Frame
import proofs.«124664_j87282325390064_1_alg».proof.Proof.Gen.KernelIdeal
import proofs.«124664_j87282325390064_1_alg».proof.Proof.Gen.KernelIdeal.Skeleton
import proofs.«124664_j87282325390064_1_alg».proof.Proof.Gen.KernelIdeal.Launch
import proofs.«124664_j87282325390064_1_alg».proof.Proof.Gen.KernelIdeal.Points
import proofs.«124664_j87282325390064_1_alg».proof.Proof.Gen.KernelIdeal.Frame
import proofs.«124664_j87282325390064_1_alg».proof.Proof.Gen.ReferenceIdeal
import proofs.«124664_j87282325390064_1_alg».proof.Proof.Gen.ReferenceIdeal.Run
import proofs.«124664_j87282325390064_1_alg».proof.Proof.Gen.ReferenceIdeal.Read
import proofs.«124664_j87282325390064_1_alg».proof.Proof.Gen.Pre_finite_inputs
import proofs.«124664_j87282325390064_1_alg».proof.Proof.KRun
import proofs.«124664_j87282325390064_1_alg».proof.Proof.KValue
import proofs.«124664_j87282325390064_1_alg».proof.Proof.RefSide
import Idealize.ShloMosaic.Adequacy
import Idealize.ShloMosaic.Init

noncomputable section

namespace Cert.Proof

open Idealize.ShloMosaic Idealize.ShloMosaic.TcCoe Idealize.SL.Sem

/-- The two programs' neighbour sums are the same operations of the edge array. -/
theorem agg_same (x1 : IVec Cert.KernelIdeal.S2x1200000 32) :
    Cert.ReferenceIdeal.RefValue.agg x1 = Cert.KernelIdeal.NetValue.agg x1 := rfl

/-- So are their degree counts. -/
theorem deg_same (x1 : IVec Cert.KernelIdeal.S2x1200000 32) :
    Cert.ReferenceIdeal.RefValue.deg x1 = Cert.KernelIdeal.NetValue.deg x1 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of Spec.lean of the arguments, over the same neighbour sum and degree. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.NetValue.result_eq m ρ c), (h c).2⟩)
    (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2, agg_same, deg_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
